-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x4096 : Shape := ⟨3, ![8, 8192, 4096]⟩
abbrev S4096 : Shape := ⟨1, ![4096]⟩
abbrev S8192x4096 : Shape := ⟨2, ![8192, 4096]⟩
abbrev S_ : Shape := ⟨0, ![]⟩

class Facts : Prop where
  bcast_S_S8x8192x4096 : S_.BroadcastsInDim S8x8192x4096 (![] : Fin 0 → Fin S8x8192x4096.rank)
  reducesTo_S8x8192x4096_S_d0_1_2 : S8x8192x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S8192x4096 : S_.BroadcastsInDim S8192x4096 (![] : Fin 0 → Fin S8192x4096.rank)
  reducesTo_S8192x4096_S_d0_1 : S8192x4096.ReducesTo [0, 1] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x8192x4096 .f32) (main_arg1 : FVec F S4096 .f32) (main_arg2 : FVec F S8192x4096 .f32) (main_arg3 : FVec F S4096 .f32) : IVec S_ 1 :=
  let main_v0 : FVec F S8x8192x4096 .f32 := Host.absf main_arg0
  let main_cst : FVec F S_ .f32 := constant S_ .f32 0x7F800000#32
  let main_v1 : FVec F S8x8192x4096 .f32 := broadcastInDim S8x8192x4096 ![] bcast_S_S8x8192x4096 main_cst
  let main_v2 : IVec S8x8192x4096 1 := cmpf .olt main_v0 main_v1
  let main_c : IVec S_ 1 := constantI S_ 1 1#1
  let main_v3 : IVec S_ 1 := (fun x v => Host.reduce IntOp.andi x v reducesTo_S8x8192x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x8192x4096 : Shape := ⟨3, ![8, 8192, 4096]⟩
abbrev S4096 : Shape := ⟨1, ![4096]⟩
abbrev S8192x4096 : Shape := ⟨2, ![8192, 4096]⟩
abbrev S8x128x4096 : Shape := ⟨3, ![8, 128, 4096]⟩
abbrev S128x4096 : Shape := ⟨2, ![128, 4096]⟩
abbrev S1x4096 : Shape := ⟨2, ![1, 4096]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S8x8192x4096, .f32⟩
  | .hbm, ⟨1, _⟩ => ⟨S4096, .f32⟩
  | .hbm, ⟨2, _⟩ => ⟨S8192x4096, .f32⟩
  | .hbm, ⟨3, _⟩ => ⟨S4096, .f32⟩
  | .hbm, ⟨4, _⟩ => ⟨S8192x4096, .f32⟩
  | .hbm, ⟨5, _⟩ => ⟨S8192x4096, .f32⟩
  | .local _ .vmem, ⟨0, _⟩ => ⟨S8x128x4096, .f32⟩
  | .local _ .vmem, ⟨1, _⟩ => ⟨S8x128x4096, .f32⟩
  | .local _ .vmem, ⟨2, _⟩ => ⟨S4096, .f32⟩
  | .local _ .vmem, ⟨3, _⟩ => ⟨S128x4096, .f32⟩
  | .local _ .vmem, ⟨4, _⟩ => ⟨S128x4096, .f32⟩
  | .local _ .vmem, ⟨5, _⟩ => ⟨S4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | _, _ => ⟨S8x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8x128x4096_S8x128x4096_0_0_0 : ∀ a, (![0, 0, 0] : Fin 3 → Nat) a + S8x128x4096.size a ≤ S8x128x4096.size a
  h_S8x128x4096 : 0 < S8x128x4096.numel
  reduces_S8x128x4096_S128x4096 : S8x128x4096.Reduces [0] S128x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4096.size a ≤ S8x8192x4096.size a
  hwx0_0 : ∀ i : grid0.Coords, EltTy.bits .f32 = 32 ∨ (Rect.block (s := S8x8192x4096) S8x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

abbrev win0_0 : Pipeline.Window sig grid0 :=
  Pipeline.Window.ofSpec (Memref.whole main_arg0) S8x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S128x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x8192x4096 : Shape := ⟨3, ![8, 8192, 4096]⟩
abbrev S4096 : Shape := ⟨1, ![4096]⟩
abbrev S8192x4096 : Shape := ⟨2, ![8192, 4096]⟩
abbrev S_ : Shape := ⟨0, ![]⟩
abbrev S1x4096 : Shape := ⟨2, ![1, 4096]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x8192x4096, .f32⟩
  | .hbm, ⟨1, _⟩ => ⟨S4096, .f32⟩
  | .hbm, ⟨2, _⟩ => ⟨S8192x4096, .f32⟩
  | .hbm, ⟨3, _⟩ => ⟨S4096, .f32⟩
  | .hbm, ⟨4, _⟩ => ⟨S_, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | _, _ => ⟨S8x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S8x8192x4096_S8192x4096_d0 : S8x8192x4096.ReducesTo [0] S8192x4096
  h_S_ : 0 < S_.numel
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)

variable [Facts₀]

class Facts : Prop extends Facts₀ where

variable [Facts]
-- ==== Proof.RowNorm.lean ====
/-
  The mathematics both programs compute, one token row at a time.

  For a token row with shard rows `xs k` (k < 8), a bias row `b`, a residual row `r` and a weight row `w`,
  all of 4096 lanes, over the extended reals:

    rowSum  q = ((Σ_k xs k q) + b q) + r q                      -- the all-reduced row plus bias plus residual
    meanSq    = (Σ_j rowSum j · rowSum j) / 4096                -- the row's mean square
    rowNorm q = (rowSum q · rsqrt (meanSq + ε)) · w q           -- RMS norm with an affine weight

  with 4096 and ε the f32 literals both programs spell (the same words on both sides, never evaluated).
  A row of either output depends only on the same row of the shards and of the residual and on the whole bias
  and weight rows; the whole-array functions `residualOut` and `normOut` below read the arrays one row at a time.
  Nothing here needs an algebraic law: both programs add and multiply in this same order.
-/
import Idealize.ShloMosaic.PureOps.Ideal
import Idealize.ShloMosaic.Lib.ValueIdx

noncomputable section

namespace Cert.RowNorm

open Idealize.ShloMosaic Idealize.ShloMosaic.ValueIdx

/-- The reduced row: the eight shard rows summed, then the bias row and the residual row added, lane by lane. -/
def rowSum (xs : Fin 8 → Fin 4096 → EReal) (b r : Fin 4096 → EReal) (q : Fin 4096) : EReal :=
  ((∑ k : Fin 8, xs k q) + b q) + r q

/-- The mean of the reduced row's squares: their sum over the 4096 lanes divided by the f32 literal 4096.0. -/
def meanSq (xs : Fin 8 → Fin 4096 → EReal) (b r : Fin 4096 → EReal) : EReal :=
  Ideal.div (∑ j : Fin 4096, rowSum xs b r j * rowSum xs b r j) (Ideal.ofBits .f32 0x45800000#32)

/-- The normalised row: the reduced row times the reciprocal root of its mean square plus ε, times the weight row. -/
def rowNorm (xs : Fin 8 → Fin 4096 → EReal) (b r w : Fin 4096 → EReal) (q : Fin 4096) : EReal :=
  (rowSum xs b r q * Ideal.rsqrt (meanSq xs b r + Ideal.ofBits .f32 0x358637BD#32)) * w q

/-- Row `p` of the shard array: for each shard `k`, lane `j` ↦ X (k, p, j). -/
abbrev shardRows {n : Nat} (X : (⟨3, ![8, n, 4096]⟩ : Shape).Idx → EReal) (p : Fin n) : Fin 8 → Fin 4096 → EReal :=
  fun k j => X (ix3 k p j)

/-- A rank-one array of 4096 lanes as a row. -/
abbrev lanes (B : (⟨1, ![4096]⟩ : Shape).Idx → EReal) : Fin 4096 → EReal := fun j => B (ix1 j)

/-- Row `p` of a rank-two array of 4096 lanes. -/
abbrev rowOf {n : Nat} (R : (⟨2, ![n, 4096]⟩ : Shape).Idx → EReal) (p : Fin n) : Fin 4096 → EReal := fun j => R (ix2 p j)

/-- The residual output over `n` token rows: each row is `rowSum` of the same row of the inputs. -/
def residualOut {n : Nat} (X : (⟨3, ![8, n, 4096]⟩ : Shape).Idx → EReal) (B : (⟨1, ![4096]⟩ : Shape).Idx → EReal)
    (R : (⟨2, ![n, 4096]⟩ : Shape).Idx → EReal) : (⟨2, ![n, 4096]⟩ : Shape).Idx → EReal :=
  fun i => rowSum (shardRows X (i 0)) (lanes B) (rowOf R (i 0)) (i 1)

/-- The normalised output over `n` token rows: each row is `rowNorm` of the same row of the inputs. -/
def normOut {n : Nat} (X : (⟨3, ![8, n, 4096]⟩ : Shape).Idx → EReal) (B : (⟨1, ![4096]⟩ : Shape).Idx → EReal)
    (R : (⟨2, ![n, 4096]⟩ : Shape).Idx → EReal) (W : (⟨1, ![4096]⟩ : Shape).Idx → EReal) :
    (⟨2, ![n, 4096]⟩ : Shape).Idx → EReal :=
  fun i => rowNorm (shardRows X (i 0)) (lanes B) (rowOf R (i 0)) (lanes W) (i 1)

theorem residualOut_apply {n : Nat} (X : (⟨3, ![8, n, 4096]⟩ : Shape).Idx → EReal) (B : (⟨1, ![4096]⟩ : Shape).Idx → EReal)
    (R : (⟨2, ![n, 4096]⟩ : Shape).Idx → EReal) (p : Fin n) (q : Fin 4096) :
    residualOut X B R (ix2 p q) = rowSum (shardRows X p) (lanes B) (rowOf R p) q := rfl

theorem normOut_apply {n : Nat} (X : (⟨3, ![8, n, 4096]⟩ : Shape).Idx → EReal) (B : (⟨1, ![4096]⟩ : Shape).Idx → EReal)
    (R : (⟨2, ![n, 4096]⟩ : Shape).Idx → EReal) (W : (⟨1, ![4096]⟩ : Shape).Idx → EReal) (p : Fin n) (q : Fin 4096) :
    normOut X B R W (ix2 p q) = rowNorm (shardRows X p) (lanes B) (rowOf R p) (lanes W) q := rfl

/-- Rows that agree lane by lane give the same reduced row. -/
theorem rowSum_congr {xs xs' : Fin 8 → Fin 4096 → EReal} {b b' r r' : Fin 4096 → EReal}
    (hx : ∀ k j, xs k j = xs' k j) (hb : ∀ j, b j = b' j) (hr : ∀ j, r j = r' j) (q : Fin 4096) :
    rowSum xs b r q = rowSum xs' b' r' q := by
  obtain rfl : xs = xs' := funext fun k => funext (hx k)
  obtain rfl : b = b' := funext hb
  obtain rfl : r = r' := funext hr
  rfl

/-- Rows that agree lane by lane give the same normalised row. -/
theorem rowNorm_congr {xs xs' : Fin 8 → Fin 4096 → EReal} {b b' r r' w w' : Fin 4096 → EReal}
    (hx : ∀ k j, xs k j = xs' k j) (hb : ∀ j, b j = b' j) (hr : ∀ j, r j = r' j) (hw : ∀ j, w j = w' j) (q : Fin 4096) :
    rowNorm xs b r w q = rowNorm xs' b' r' w' q := by
  obtain rfl : xs = xs' := funext fun k => funext (hx k)
  obtain rfl : b = b' := funext hb
  obtain rfl : r = r' := funext hr
  obtain rfl : w = w' := funext hw
  rfl

end Cert.RowNorm

end
-- ==== Proof.RefRows.lean ====
/-
  The reference computes the row functions: its two results, stage by stage, read at an index.

  jnp's reference sums the shards over the leading axis (a host reduction from 0), adds the broadcast bias row and
  the residual, squares, sums each row's 4096 lanes (again from 0), divides by 4096.0, adds ε, takes the reciprocal
  root, and multiplies the reduced array by that column and by the broadcast weight row. Read at (p, q) every
  stage is the matching piece of `RowNorm.rowSum` / `RowNorm.rowNorm` of row p of the inputs: the two host sums
  lose their zero initial value, the broadcasts read the bias and weight at lane q and the row statistic at row p.
-/
import proofs.«138418_j56994216018563_1_alg».proof.Proof.Gen.ReferenceIdeal.Read
import proofs.«138418_j56994216018563_1_alg».proof.Proof.RowNorm
import Idealize.ShloMosaic.Lib.ValueIdx
import Idealize.ShloMosaic.PureOps.Ideal.Laws

noncomputable section

namespace Cert.ReferenceIdeal.RefRows

open Cert.ReferenceIdeal Cert.ReferenceIdeal.Read Idealize.ShloMosaic Idealize.ShloMosaic.ValueIdx Cert.RowNorm

variable (x0 : (⟨S8x8192x4096, .f32⟩ : BufTy).Contents (Elt Ideal)) (x1 : (⟨S4096, .f32⟩ : BufTy).Contents (Elt Ideal))
  (x2 : (⟨S8192x4096, .f32⟩ : BufTy).Contents (Elt Ideal)) (x3 : (⟨S4096, .f32⟩ : BufTy).Contents (Elt Ideal))

/-- The shard sum at (p, q) reads shard k at (k, p, q). -/
theorem shard_idx (p : Fin 8192) (q : Fin 4096) (k : Fin 8) : idx_main_v0 (ix2 p q) k = ix3 k p q :=
  funext fun a => Fin.ext (by match a with | ⟨0, _⟩ => rfl | ⟨1, _⟩ => rfl | ⟨2, _⟩ => rfl)

/-- The bias row broadcast to every token row reads lane q. -/
theorem bias_idx (p : Fin 8192) (q : Fin 4096) : idx_main_v1 (idx_main_v2 (ix2 p q)) = ix1 q :=
  funext fun a => Fin.ext (by match a with | ⟨0, _⟩ => rfl)

/-- The weight row broadcast to every token row reads lane q. -/
theorem weight_idx (p : Fin 8192) (q : Fin 4096) : idx_main_v15 (idx_main_v16 (ix2 p q)) = ix1 q :=
  funext fun a => Fin.ext (by match a with | ⟨0, _⟩ => rfl)

/-- The row sum of squares at row p reads lane j at (p, j). -/
theorem lane_idx (p : Fin 8192) (j : Fin 4096) : idx_main_v6 (ix1 p) j = ix2 p j :=
  funext fun a => Fin.ext (by match a with | ⟨0, _⟩ => rfl | ⟨1, _⟩ => rfl)

/-- The row statistic broadcast along the lanes reads row p. -/
theorem stat_idx (p : Fin 8192) (q : Fin 4096) : idx_main_v7 (idx_main_v13 (ix2 p q)) = ix1 p :=
  funext fun a => Fin.ext (by match a with | ⟨0, _⟩ => rfl)

/-- The reduced array at (p, q) is `rowSum` of row p of the inputs at lane q. -/
theorem reduced_at (p : Fin 8192) (q : Fin 4096) :
    val_main_v4 (F := Ideal) x0 x1 x2 (ix2 p q) = rowSum (shardRows (n := 8192) x0 p) (lanes x1) (rowOf (n := 8192) x2 p) q := by
  rw [val_main_v4_apply, val_main_v3_apply, val_main_v0_apply, val_main_v2_apply, val_main_v1_apply, val_main_cst_apply, bias_idx]
  unfold rowSum
  simp only [Ideal.addf_def, Ideal.ofBits_def, Ideal.ofBits_zero_f32, zero_add]
  refine congrArg (· + x2 (ix2 p q)) (congrArg (· + x1 (ix1 q)) (Finset.sum_congr rfl fun k _ => ?_))
  exact congrArg x0 (shard_idx p q k)

/-- The row's sum of squares is the sum the mean square divides. -/
theorem sumsq_at (p : Fin 8192) :
    val_main_v6 (F := Ideal) x0 x1 x2 (ix1 p)
      = ∑ j : Fin 4096, rowSum (shardRows (n := 8192) x0 p) (lanes x1) (rowOf (n := 8192) x2 p) j
          * rowSum (shardRows (n := 8192) x0 p) (lanes x1) (rowOf (n := 8192) x2 p) j := by
  rw [val_main_v6_apply, val_main_cst_0_apply]
  simp only [Ideal.ofBits_def, Ideal.ofBits_zero_f32, zero_add]
  refine Finset.sum_congr rfl fun j _ => ?_
  rw [lane_idx, val_main_v5_apply, reduced_at]
  rfl

/-- The reciprocal root column at row p is that of `meanSq` plus ε. -/
theorem rstd_at (p : Fin 8192) (q : Fin 4096) :
    val_main_v12 (F := Ideal) x0 x1 x2 (idx_main_v13 (ix2 p q))
      = Ideal.rsqrt (meanSq (shardRows (n := 8192) x0 p) (lanes x1) (rowOf (n := 8192) x2 p) + Ideal.ofBits .f32 0x358637BD#32) := by
  rw [val_main_v12_apply, val_main_v11_apply, val_main_v9_apply, val_main_v7_apply, val_main_v8_apply, val_main_v10_apply,
    val_main_cst_1_apply, val_main_cst_2_apply, stat_idx, sumsq_at]
  rfl

/-- The reference's second result, the reduced array, is `residualOut`. -/
theorem residual_eq : val_main_v4 (F := Ideal) x0 x1 x2 = residualOut (n := 8192) x0 x1 x2 := by
  funext i
  obtain ⟨p, q, rfl⟩ : ∃ (p : Fin 8192) (q : Fin 4096), i = ix2 p q := ⟨i 0, i 1, eq_ix2 i⟩
  rw [reduced_at, residualOut_apply]

/-- The reference's first result, the normalised array, is `normOut`. -/
theorem norm_eq : val_main_v17 (F := Ideal) x0 x1 x2 x3 = normOut (n := 8192) x0 x1 x2 x3 := by
  funext i
  obtain ⟨p, q, rfl⟩ : ∃ (p : Fin 8192) (q : Fin 4096), i = ix2 p q := ⟨i 0, i 1, eq_ix2 i⟩
  rw [val_main_v17_apply, val_main_v14_apply, val_main_v13_apply, val_main_v16_apply, val_main_v15_apply, weight_idx,
    reduced_at, rstd_at, normOut_apply]
  rfl

end Cert.ReferenceIdeal.RefRows

end
-- ==== Proof.BlockRows.lean ====
/-
  What the kernel body leaves in its two output blocks, read one token row at a time.

  At a grid point the body loads a block of 128 token rows of every shard (8 × 128 × 4096), the bias and weight
  rows, and the residual's 128 rows; it sums the shards over the leading axis (a reduction from 0), adds the
  bias row (cast to one row and broadcast down the 128 rows) and the residual block, and stores that as the
  residual output's block; it then squares, sums each row's 4096 lanes, divides by 4096.0, adds ε, takes the
  reciprocal root (a column, broadcast along the lanes), multiplies, multiplies by the broadcast weight row, and
  stores the normalised block. Read at (p, q) the two stored blocks are `RowNorm.rowSum` and `RowNorm.rowNorm`
  of row p of the loaded blocks at lane q.
-/
import proofs.«138418_j56994216018563_1_alg».proof.Proof.Gen.KernelIdeal.Value
import proofs.«138418_j56994216018563_1_alg».proof.Proof.RowNorm
import Idealize.ShloMosaic.Lib.ValueIdx
import Idealize.ShloMosaic.PureOps.Ideal.Laws

noncomputable section

namespace Cert.KernelIdeal.BlockRows

open Cert.KernelIdeal Cert.KernelIdeal.Gen Cert.KernelIdeal.Value Idealize.ShloMosaic Idealize.ShloMosaic.ValueIdx Cert.RowNorm

variable (P0 : Vec Ideal S8x128x4096 .f32) (P1 : Vec Ideal S4096 .f32) (P2 : Vec Ideal S128x4096 .f32) (P3 : Vec Ideal S4096 .f32)

/-- The block's shards summed over the leading axis, from 0: a 128 × 4096 block. -/
def shardSum : FVec Ideal S128x4096 .f32 :=
  multiReduction (F := Ideal) .add [0] S128x4096 P0 0x00000000#32 reduces_S8x128x4096_S128x4096 (.inl rfl) rfl

/-- A 128 × 4096 block summed along its lanes, from 0: one entry per row. -/
def laneSum (V : FVec Ideal S128x4096 .f32) : FVec Ideal S128 .f32 :=
  multiReduction (F := Ideal) .add [1] S128 V 0x00000000#32 reduces_S128x4096_S128 (.inl rfl) rfl

/-- The shard sum at (p, q): the eight shards' entries at row p, lane q, added. -/
theorem shardSum_at (p : Fin 128) (q : Fin 4096) : shardSum P0 (ix2 p q) = ∑ k : Fin 8, P0 (ix3 k p q) := by
  unfold shardSum
  refine (Ideal.multiReduction_add_single P0 0x00000000#32 reduces_S8x128x4096_S128x4096 (.inl rfl) rfl (ix2 p q)).trans ?_
  refine Finset.sum_congr rfl fun (k : Fin 8) _ => congrArg P0 (funext fun a => Fin.ext ?_)
  match a with | ⟨0, _⟩ => rfl | ⟨1, _⟩ => rfl | ⟨2, _⟩ => rfl

/-- A row's sum of squares: the lane sum of a block times itself at row p, for a block whose row p is `f`. -/
theorem sumSq_row (V : FVec Ideal S128x4096 .f32) (p : Fin 128) (f : Fin 4096 → EReal) (hV : ∀ j, V (ix2 p j) = f j) :
    laneSum (mulf V V) (ix1 p) = ∑ j : Fin 4096, f j * f j := by
  unfold laneSum
  refine (Ideal.multiReduction_add_single (mulf V V) 0x00000000#32 reduces_S128x4096_S128 (.inl rfl) rfl (ix1 p)).trans ?_
  refine Finset.sum_congr rfl fun (j : Fin 4096) _ => ?_
  have e : (reduces_S128x4096_S128.lift (ix1 p) j : S128x4096.Idx) = ix2 p j :=
    funext fun a => Fin.ext (by match a with | ⟨0, _⟩ => rfl | ⟨1, _⟩ => rfl)
  rw [e]
  show V (ix2 p j) * V (ix2 p j) = f j * f j
  rw [hV]

/-- The residual output's block, index by index, in this module's names. -/
theorem residual_unfold (y : S128x4096.Idx) :
    E5 (F := Ideal) P0 P1 P2 y = (shardSum P0 (ix5_0 y) + P1 (ix5_1 y)) + P2 (ix5_2 y) := rfl

/-- The normalised output's block, index by index, in this module's names: the squared block is the body's
    first payload (the vector it also stores to the residual block). -/
theorem norm_unfold (y : S128x4096.Idx) :
    E4 (F := Ideal) P0 P1 P2 P3 y
      = (((shardSum P0 (ix4_0 y) + P1 (ix4_1 y)) + P2 (ix4_2 y))
          * Ideal.rsqrt (Ideal.div (laneSum (mulf (k0_pay1 (F := Ideal) P0 P1 P2) (k0_pay1 (F := Ideal) P0 P1 P2)) (ix4_3 y))
              (Ideal.ofBits .f32 0x45800000#32) + Ideal.ofBits .f32 0x358637BD#32))
        * P3 (ix4_4 y) := rfl

/-- The residual output's block at (p, q) is the reduced row p of the loaded blocks at lane q. -/
theorem residual_block (p : Fin 128) (q : Fin 4096) :
    E5 (F := Ideal) P0 P1 P2 (ix2 p q) = rowSum (shardRows (n := 128) P0 p) (lanes P1) (rowOf (n := 128) P2 p) q := by
  have h0 : ix5_0 (ix2 p q) = ix2 p q := funext fun a => Fin.ext (by match a with | ⟨0, _⟩ => rfl | ⟨1, _⟩ => rfl)
  have h1 : ix5_1 (ix2 p q) = ix1 q := funext fun a => Fin.ext (by match a with | ⟨0, _⟩ => rfl)
  have h2 : ix5_2 (ix2 p q) = ix2 p q := funext fun a => Fin.ext (by match a with | ⟨0, _⟩ => rfl | ⟨1, _⟩ => rfl)
  rw [residual_unfold, h0, h1, h2, shardSum_at]
  rfl

/-- The same of the body's first payload: the vector the body stores to the residual block and squares. -/
theorem reduced_at (p : Fin 128) (q : Fin 4096) :
    k0_pay1 (F := Ideal) P0 P1 P2 (ix2 p q) = rowSum (shardRows (n := 128) P0 p) (lanes P1) (rowOf (n := 128) P2 p) q := by
  have h : r0_2.idx (ix2 p q) = ix2 p q :=
    funext fun a => Fin.ext (by
      match a with
      | ⟨0, _⟩ => show 0 + 1 * p.val = p.val; omega
      | ⟨1, _⟩ => show 0 + 1 * q.val = q.val; omega)
  rw [piece5_0, h, residual_block]

/-- The normalised output's block at (p, q) is the normalised row p of the loaded blocks at lane q. -/
theorem norm_block (p : Fin 128) (q : Fin 4096) :
    E4 (F := Ideal) P0 P1 P2 P3 (ix2 p q)
      = rowNorm (shardRows (n := 128) P0 p) (lanes P1) (rowOf (n := 128) P2 p) (lanes P3) q := by
  have h0 : ix4_0 (ix2 p q) = ix2 p q := funext fun a => Fin.ext (by match a with | ⟨0, _⟩ => rfl | ⟨1, _⟩ => rfl)
  have h1 : ix4_1 (ix2 p q) = ix1 q := funext fun a => Fin.ext (by match a with | ⟨0, _⟩ => rfl)
  have h2 : ix4_2 (ix2 p q) = ix2 p q := funext fun a => Fin.ext (by match a with | ⟨0, _⟩ => rfl | ⟨1, _⟩ => rfl)
  have h3 : ix4_3 (ix2 p q) = ix1 p := funext fun a => Fin.ext (by match a with | ⟨0, _⟩ => rfl)
  have h4 : ix4_4 (ix2 p q) = ix1 q := funext fun a => Fin.ext (by match a with | ⟨0, _⟩ => rfl)
  rw [norm_unfold, h0, h1, h2, h3, h4, shardSum_at,
    sumSq_row (k0_pay1 (F := Ideal) P0 P1 P2) p (rowSum (shardRows (n := 128) P0 p) (lanes P1) (rowOf (n := 128) P2 p))
      (fun j => reduced_at P0 P1 P2 p j)]
  rfl

theorem off1 : (![0] : Fin 1 → Nat) = fun _ => 0 := funext fun a => by fin_cases a; rfl
theorem off2 : (![0, 0] : Fin 2 → Nat) = fun _ => 0 := funext fun a => by fin_cases a <;> rfl
theorem off3 : (![0, 0, 0] : Fin 3 → Nat) = fun _ => 0 := funext fun a => by fin_cases a <;> rfl

/-- What the body leaves in the residual output's staging block, at (p, q): every load reads its whole block, the
    one store covers the block, so the block is the stored vector, index by index. -/
theorem residual_stored (p : Fin 128) (q : Fin 4096) :
    out0_5 (F := Ideal) P0 P1 P2 P3 (ix2 p q) = rowSum (shardRows (n := 128) P0 p) (lanes P1) (rowOf (n := 128) P2 p) q := by
  unfold out0_5
  simp only [View.ld_unit_zero (S := S8x128x4096) off3, View.ld_unit_zero (S := S4096) off1, View.ld_unit_zero (S := S128x4096) off2]
  rw [canon5_eq, residual_block]

/-- What the body leaves in the normalised output's staging block, at (p, q). -/
theorem norm_stored (p : Fin 128) (q : Fin 4096) :
    out0_4 (F := Ideal) P0 P1 P2 P3 (ix2 p q)
      = rowNorm (shardRows (n := 128) P0 p) (lanes P1) (rowOf (n := 128) P2 p) (lanes P3) q := by
  unfold out0_4
  simp only [View.ld_unit_zero (S := S8x128x4096) off3, View.ld_unit_zero (S := S4096) off1, View.ld_unit_zero (S := S128x4096) off2]
  rw [canon4_eq, norm_block]

end Cert.KernelIdeal.BlockRows

end
-- ==== Proof.Arrays.lean ====
/-
  From the blocks to the arrays: after the kernel's run each output array is the whole-array row function of
  the argument arrays.

  The grid has 64 points; point t stages rows 128·t … 128·t + 127 of every shard and of the residual, the whole
  bias and weight rows, and writes back rows 128·t … 128·t + 127 of both outputs. A row of either output block
  is the row function of the same row of the staged blocks (BlockRows), and a staged block's row p is row
  128·t + p of its array, so what point t writes back is block t of `RowNorm.residualOut` / `RowNorm.normOut`
  of the arrays. The 64 blocks tile the 8192 rows (the point covering row r is r / 128), so each output array
  ends as that function everywhere.
-/
import proofs.«138418_j56994216018563_1_alg».proof.Proof.BlockRows
import Idealize.ShloMosaic.Lib.Pipeline.Value

noncomputable section

namespace Cert.KernelIdeal.Arrays

open Cert.KernelIdeal Cert.KernelIdeal.Gen Cert.KernelIdeal.Value Cert.KernelIdeal.BlockRows
open Idealize.ShloMosaic Idealize.ShloMosaic.TcCoe Idealize.SL.Sem Idealize.ShloMosaic.ValueIdx Cert.RowNorm
open Idealize.ShloMosaic.Pipeline (Dat)

variable (m : (ℓ : Loc nD τ sig) → Buf (Elt Ideal) ℓ) (ρ : Dev nD → PrngReg)

/-- The four argument arrays as the region finds them, at their literal shapes. -/
abbrev shards (c : Dev nD) : S8x8192x4096.Idx → EReal := V m c main_arg0
abbrev biasRow (c : Dev nD) : S4096.Idx → EReal := V m c main_arg1
abbrev resid (c : Dev nD) : S8192x4096.Idx → EReal := V m c main_arg2
abbrev weightRow (c : Dev nD) : S4096.Idx → EReal := V m c main_arg3

/-- The residual output as one function of the argument arrays. -/
def residualArr (c : Dev nD) : S8192x4096.Idx → EReal :=
  residualOut (n := 8192) (shards m c) (biasRow m c) (resid m c)

/-- The normalised output as one function of the argument arrays. -/
def normArr (c : Dev nD) : S8192x4096.Idx → EReal :=
  normOut (n := 8192) (shards m c) (biasRow m c) (resid m c) (weightRow m c)

/-- The printed index maps over the 64 grid points: the shard and residual windows move down the token rows with
    the outputs' windows, the bias and weight windows stay, no window moves along the lanes. -/
theorem idx_facts : ∀ t : Fin cfg0.N,
    win0_0.index t (0 : Fin 3) = 0 ∧ win0_0.index t (1 : Fin 3) = win0_5.index t (0 : Fin 2) ∧ win0_0.index t (2 : Fin 3) = 0
    ∧ win0_1.index t (0 : Fin 1) = 0
    ∧ win0_2.index t (0 : Fin 2) = win0_5.index t (0 : Fin 2) ∧ win0_2.index t (1 : Fin 2) = 0
    ∧ win0_3.index t (0 : Fin 1) = 0
    ∧ win0_4.index t (0 : Fin 2) = win0_5.index t (0 : Fin 2) ∧ win0_4.index t (1 : Fin 2) = 0
    ∧ win0_5.index t (1 : Fin 2) = 0 ∧ win0_5.index t (0 : Fin 2) ≤ 63 :=
  (by decide +kernel : ∀ t : Fin grid0.N, _)

/-- Every block of 128 token rows is some point's. -/
theorem idx_onto : ∀ b : Fin 64, ∃ t : Fin cfg0.N, win0_5.index t (0 : Fin 2) = b.val :=
  (by decide +kernel : ∀ b : Fin 64, ∃ t : Fin grid0.N, win0_5.index t (0 : Fin 2) = b.val)

/-- Row p of the shard block staged at point t is row 128·(block index) + p of the shard array. -/
theorem shards_block (c : Dev nD) (t : Fin cfg0.N) (k : Fin 8) (p : Fin 128) (j : Fin 4096) (P : Fin 8192)
    (hP : P.val = win0_5.index t (0 : Fin 2) * 128 + p.val) :
    (iblk m c 0 t : Vec Ideal S8x128x4096 .f32) (ix3 k p j) = shards m c (ix3 k P j) := by
  obtain ⟨e00, e01, e02, -⟩ := idx_facts t
  unfold iblk
  rw [View.read_apply]
  show V m c main_arg0 _ = V m c main_arg0 _
  congr 1
  funext a
  apply Fin.ext
  match a with
  | ⟨0, _⟩ => show win0_0.index t (0 : Fin 3) * 8 + 1 * k.val = k.val; rw [e00]; omega
  | ⟨1, _⟩ => show win0_0.index t (1 : Fin 3) * 128 + 1 * p.val = P.val; rw [e01, hP]; omega
  | ⟨2, _⟩ => show win0_0.index t (2 : Fin 3) * 4096 + 1 * j.val = j.val; rw [e02]; omega

/-- The bias block staged at every point is the bias row. -/
theorem bias_block (c : Dev nD) (t : Fin cfg0.N) (j : Fin 4096) :
    (iblk m c 1 t : Vec Ideal S4096 .f32) (ix1 j) = biasRow m c (ix1 j) := by
  obtain ⟨-, -, -, e1, -⟩ := idx_facts t
  unfold iblk
  rw [View.read_apply]
  show V m c main_arg1 _ = V m c main_arg1 _
  congr 1
  funext a
  apply Fin.ext
  match a with
  | ⟨0, _⟩ => show win0_1.index t (0 : Fin 1) * 4096 + 1 * j.val = j.val; rw [e1]; omega

/-- Row p of the residual block staged at point t is row 128·(block index) + p of the residual array. -/
theorem resid_block (c : Dev nD) (t : Fin cfg0.N) (p : Fin 128) (j : Fin 4096) (P : Fin 8192)
    (hP : P.val = win0_5.index t (0 : Fin 2) * 128 + p.val) :
    (iblk m c 2 t : Vec Ideal S128x4096 .f32) (ix2 p j) = resid m c (ix2 P j) := by
  obtain ⟨-, -, -, -, e20, e21, -⟩ := idx_facts t
  unfold iblk
  rw [View.read_apply]
  show V m c main_arg2 _ = V m c main_arg2 _
  congr 1
  funext a
  apply Fin.ext
  match a with
  | ⟨0, _⟩ => show win0_2.index t (0 : Fin 2) * 128 + 1 * p.val = P.val; rw [e20, hP]; omega
  | ⟨1, _⟩ => show win0_2.index t (1 : Fin 2) * 4096 + 1 * j.val = j.val; rw [e21]; omega

/-- The weight block staged at every point is the weight row. -/
theorem weight_block (c : Dev nD) (t : Fin cfg0.N) (j : Fin 4096) :
    (iblk m c 3 t : Vec Ideal S4096 .f32) (ix1 j) = weightRow m c (ix1 j) := by
  obtain ⟨-, -, -, -, -, -, e3, -⟩ := idx_facts t
  unfold iblk
  rw [View.read_apply]
  show V m c main_arg3 _ = V m c main_arg3 _
  congr 1
  funext a
  apply Fin.ext
  match a with
  | ⟨0, _⟩ => show win0_3.index t (0 : Fin 1) * 4096 + 1 * j.val = j.val; rw [e3]; omega

/-- Where the residual output's block at point t puts its entry (p, q): row 128·(block index) + p, lane q. -/
theorem emb5 (t : Fin cfg0.N) (p : Fin 128) (q : Fin 4096) (P : Fin 8192)
    (hP : P.val = win0_5.index t (0 : Fin 2) * 128 + p.val) :
    (((cfg0.win 5).blk t).view.emb (ix2 p q) : S8192x4096.Idx) = ix2 P q := by
  obtain ⟨-, -, -, -, -, -, -, -, -, e51, -⟩ := idx_facts t
  funext a
  apply Fin.ext
  match a with
  | ⟨0, _⟩ => show win0_5.index t (0 : Fin 2) * 128 + 1 * p.val = P.val; rw [hP]; omega
  | ⟨1, _⟩ => show win0_5.index t (1 : Fin 2) * 4096 + 1 * q.val = q.val; rw [e51]; omega

/-- Likewise the normalised output's block. -/
theorem emb4 (t : Fin cfg0.N) (p : Fin 128) (q : Fin 4096) (P : Fin 8192)
    (hP : P.val = win0_5.index t (0 : Fin 2) * 128 + p.val) :
    (((cfg0.win 4).blk t).view.emb (ix2 p q) : S8192x4096.Idx) = ix2 P q := by
  obtain ⟨-, -, -, -, -, -, -, e40, e41, -⟩ := idx_facts t
  funext a
  apply Fin.ext
  match a with
  | ⟨0, _⟩ => show win0_4.index t (0 : Fin 2) * 128 + 1 * p.val = P.val; rw [e40, hP]; omega
  | ⟨1, _⟩ => show win0_4.index t (1 : Fin 2) * 4096 + 1 * q.val = q.val; rw [e41]; omega

/-- The array row that row p of point t's blocks is. -/
def arrayRow (t : Fin cfg0.N) (p : Fin 128) : Fin 8192 :=
  ⟨win0_5.index t (0 : Fin 2) * 128 + p.val, by have := (idx_facts t).2.2.2.2.2.2.2.2.2.2; have := p.isLt; omega⟩

/-- What point t leaves in the residual output's staging block is block t of `residualArr`. -/
theorem residual_point (c : Dev nD) (t : Fin cfg0.N) (p : Fin 128) (q : Fin 4096) :
    out0_5 (F := Ideal) (iblk m c 0 t) (iblk m c 1 t) (iblk m c 2 t) (iblk m c 3 t) (ix2 p q)
      = residualArr m c (((cfg0.win 5).blk t).view.emb (ix2 p q)) := by
  rw [emb5 t p q (arrayRow t p) rfl]
  refine (residual_stored (iblk m c 0 t) (iblk m c 1 t) (iblk m c 2 t) (iblk m c 3 t) p q).trans ?_
  unfold residualArr
  rw [residualOut_apply]
  exact rowSum_congr (fun k j => shards_block m c t k p j (arrayRow t p) rfl) (fun j => bias_block m c t j)
    (fun j => resid_block m c t p j (arrayRow t p) rfl) q

/-- What point t leaves in the normalised output's staging block is block t of `normArr`. -/
theorem norm_point (c : Dev nD) (t : Fin cfg0.N) (p : Fin 128) (q : Fin 4096) :
    out0_4 (F := Ideal) (iblk m c 0 t) (iblk m c 1 t) (iblk m c 2 t) (iblk m c 3 t) (ix2 p q)
      = normArr m c (((cfg0.win 4).blk t).view.emb (ix2 p q)) := by
  rw [emb4 t p q (arrayRow t p) rfl]
  refine (norm_stored (iblk m c 0 t) (iblk m c 1 t) (iblk m c 2 t) (iblk m c 3 t) p q).trans ?_
  unfold normArr
  rw [normOut_apply]
  exact rowNorm_congr (fun k j => shards_block m c t k p j (arrayRow t p) rfl) (fun j => bias_block m c t j)
    (fun j => resid_block m c t p j (arrayRow t p) rfl) (fun j => weight_block m c t j) q

/-- What point t writes back to the residual output is block t of `residualArr`. -/
theorem flushed5_eq (c : Dev nD) (t : Fin cfg0.N) :
    (dats m 0 c).flushed 5 t = ((cfg0.win 5).blk t).view.read (Elt Ideal) (residualArr m c) := by
  rw [flushed5]
  funext j
  show out0_5 (F := Ideal) (iblk m c 0 t) (iblk m c 1 t) (iblk m c 2 t) (iblk m c 3 t) j
    = residualArr m c (((cfg0.win 5).blk t).view.emb j)
  obtain ⟨p, q, rfl⟩ : ∃ (p : Fin 128) (q : Fin 4096), j = ix2 p q := ⟨j 0, j 1, eq_ix2 j⟩
  exact residual_point m c t p q

/-- What point t writes back to the normalised output is block t of `normArr`. -/
theorem flushed4_eq (c : Dev nD) (t : Fin cfg0.N) :
    (dats m 0 c).flushed 4 t = ((cfg0.win 4).blk t).view.read (Elt Ideal) (normArr m c) := by
  rw [flushed4]
  funext j
  show out0_4 (F := Ideal) (iblk m c 0 t) (iblk m c 1 t) (iblk m c 2 t) (iblk m c 3 t) j
    = normArr m c (((cfg0.win 4).blk t).view.emb j)
  obtain ⟨p, q, rfl⟩ : ∃ (p : Fin 128) (q : Fin 4096), j = ix2 p q := ⟨j 0, j 1, eq_ix2 j⟩
  exact norm_point m c t p q

/-- An index of the residual output is in point t's block iff each coordinate is in the block's range. -/
theorem mem_blk5 (t : Fin cfg0.N) (i : S8192x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v0_1).slice (win0_5.rect t)).set ↔ _
  rw [View.set_slice_whole, Rect.mem_set_unit]
  exact Iff.rfl

/-- Likewise the normalised output. -/
theorem mem_blk4 (t : Fin cfg0.N) (i : S8192x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v0_0).slice (win0_4.rect t)).set ↔ _
  rw [View.set_slice_whole, Rect.mem_set_unit]
  exact Iff.rfl

/-- The blocks tile the residual output: row r is in the block of the point with block index r / 128. -/
theorem cover5 (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto ⟨(i 0).val / 128, by omega⟩
  have q0 : win0_5.index t (0 : Fin 2) = (i 0).val / 128 := ht
  obtain ⟨-, -, -, -, -, -, -, -, -, e51, -⟩ := idx_facts t
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 4096 ≤ (i 1).val ∧ (i 1).val < win0_5.index t (1 : Fin 2) * 4096 + 4096; omega

/-- The blocks tile the normalised output. -/
theorem cover4 (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 128, by omega⟩
  have q0 : win0_5.index t (0 : Fin 2) = (i 0).val / 128 := ht
  obtain ⟨-, -, -, -, -, -, -, e40, e41, -⟩ := idx_facts t
  refine ⟨t, flush0_4 t, ?_⟩
  rw [mem_blk4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 4096 ≤ (i 1).val ∧ (i 1).val < win0_4.index t (1 : Fin 2) * 4096 + 4096; omega

/-- After the run the residual output array is `residualArr`. -/
theorem final5 (c : Dev nD) : (dats m 0 c).arrAt 5 cfg0.N = residualArr m c :=
  (dats m 0 c).arrAt_eq_of_cover 5 (residualArr m c) (fun t _ => flushed5_eq m c t) cover5

/-- After the run the normalised output array is `normArr`. -/
theorem final4 (c : Dev nD) : (dats m 0 c).arrAt 4 cfg0.N = normArr m c :=
  (dats m 0 c).arrAt_eq_of_cover 4 (normArr m c) (fun t _ => flushed4_eq m c t) cover4

/-- The kernel's run, read: both output arrays at their functions of the argument arrays, the arguments unchanged. -/
theorem run : θ_run defs (onTc (τ := τ) (main (F := Ideal))) ⟨m, fun _ => 0, ρ⟩ fun r => ∀ c : Dev nD,
      r.2.mem ((c : Thread nD τ).loc main_v0_0) = normArr m c
      ∧ r.2.mem ((c : Thread nD τ).loc main_v0_1) = residualArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelIdeal.Arrays

end
-- ==== Proof.lean ====
/-
  A simulated tensor-parallel all-reduce fused with a bias and residual add and an RMS norm, against its jnp
  reference, over the extended reals.

  Inputs: eight shards x[k] (k < 8) of 8192 token rows by 4096 lanes, a bias row, a residual array of 8192 × 4096,
  a weight row. Both programs compute, for token row p and lane q,

    residual_out[p, q] = ((Σ_k x[k, p, q]) + bias[q]) + residual[p, q]
    norm_out[p, q]     = (residual_out[p, q] · rsqrt ((Σ_j residual_out[p, j]²) / 4096 + ε)) · weight[q]

  with the same f32 literals 4096.0 and ε and the same order of additions and multiplications; the kernel does it
  128 token rows at a time over a grid of 64 points, the reference on whole arrays. Each output row depends only on
  the same row of the shards and of the residual, so the kernel's 64 row blocks are the blocks of the reference's
  arrays. No algebraic law is needed (the sums from 0 lose their 0, nothing else moves), so the finiteness of the
  inputs is never used.

  The modules: RowNorm states the row functions and the two whole-array functions; RefRows reads the reference's
  stages at an index as the row functions; BlockRows reads what the kernel body stores in its two output blocks as
  the row functions of the staged blocks; Arrays turns the staged blocks into rows of the argument arrays, shows
  the written-back blocks tile both outputs, and restates the kernel's run with both output arrays named. The
  three frames are the generated frames and the reference's generated run with its results dropped; the
  idealisation rewrote nothing, so there is nothing to preserve.
-/
import proofs.«138418_j56994216018563_1_alg».proof.Defs
import proofs.«138418_j56994216018563_1_alg».proof.Proof.Gen.Kernel
import proofs.«138418_j56994216018563_1_alg».proof.Proof.Gen.Kernel.Skeleton
import proofs.«138418_j56994216018563_1_alg».proof.Proof.Gen.Kernel.Launch
import proofs.«138418_j56994216018563_1_alg».proof.Proof.Gen.Kernel.Points
import proofs.«138418_j56994216018563_1_alg».proof.Proof.Gen.Kernel.Frame
import proofs.«138418_j56994216018563_1_alg».proof.Proof.Gen.KernelIdeal
import proofs.«138418_j56994216018563_1_alg».proof.Proof.Gen.KernelIdeal.Skeleton
import proofs.«138418_j56994216018563_1_alg».proof.Proof.Gen.KernelIdeal.Launch
import proofs.«138418_j56994216018563_1_alg».proof.Proof.Gen.KernelIdeal.Points
import proofs.«138418_j56994216018563_1_alg».proof.Proof.Gen.KernelIdeal.Frame
import proofs.«138418_j56994216018563_1_alg».proof.Proof.Gen.ReferenceIdeal
import proofs.«138418_j56994216018563_1_alg».proof.Proof.Gen.Pre_finite_inputs
import proofs.«138418_j56994216018563_1_alg».proof.Proof.Gen.KernelIdeal.Value
import proofs.«138418_j56994216018563_1_alg».proof.Proof.Gen.ReferenceIdeal.Run
import proofs.«138418_j56994216018563_1_alg».proof.Proof.Gen.ReferenceIdeal.Read
import proofs.«138418_j56994216018563_1_alg».proof.Proof.RefRows
import proofs.«138418_j56994216018563_1_alg».proof.Proof.Arrays
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealised kernel runs and keeps its arguments. -/
theorem frame_kernelIdeal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealisation rewrote no operation. -/
theorem preserves : Cert.preserves_Kernel_KernelIdeal := trivial

/-- Both programs end with the normalised array and the residual array at the same functions of arguments that
    agree: the kernel's run names them (Arrays), and the reference's two result terms are those functions
    (RefRows). -/
theorem algebraic : Cert.algebraic_KernelIdeal_ReferenceIdeal := by
  intro m ρ m' ρ' _ hagree
  refine ⟨fun c => Cert.KernelIdeal.Arrays.normArr m c, fun c => Cert.KernelIdeal.Arrays.residualArr m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v17_eq (F := Ideal) _ _ _ _).trans ?_
    rw [Cert.ReferenceIdeal.RefRows.norm_eq, (hagree c).1, (hagree c).2.1, (hagree c).2.2.1, (hagree c).2.2.2]
    rfl
  · refine (Cert.ReferenceIdeal.Read.val_main_v4_eq (F := Ideal) _ _ _).trans ?_
    rw [Cert.ReferenceIdeal.RefRows.residual_eq, (hagree c).1, (hagree c).2.1, (hagree c).2.2.1]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
